-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S32x32 : Shape := ⟨2, ![32, 32]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S32x32 : S_.BroadcastsInDim S32x32 (![] : Fin 0 → Fin S32x32.rank)
  reducesTo_S32x32_S_d0_1 : S32x32.ReducesTo [0, 1] S_

variable [Facts]

def fn {F : FTy → Type} [FloatOps F] (main_arg0 : FVec F S8192x4096 .f32) (main_arg1 : FVec F S4096x4096 .f32) (main_arg2 : FVec F S32x32 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S32x32 .f32 := Host.absf main_arg2
  let main_cst_2 : FVec F S_ .f32 := constant S_ .f32 0x7F800000#32
  let main_v10 : FVec F S32x32 .f32 := broadcastInDim S32x32 ![] bcast_S_S32x32 main_cst_2
  let main_v11 : IVec S32x32 1 := cmpf .olt main_v9 main_v10
  let main_c_3 : IVec S_ 1 := constantI S_ 1 1#1
  let main_v12 : IVec S_ 1 := (fun x v => Host.reduce IntOp.andi x v reducesTo_S32x32_S_d0_1 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S32x32 : Shape := ⟨2, ![32, 32]⟩
abbrev S32x32x128 : Shape := ⟨3, ![32, 32, 128]⟩
abbrev S32x4096 : Shape := ⟨2, ![32, 4096]⟩
abbrev S2048x256 : Shape := ⟨2, ![2048, 256]⟩
abbrev S1024x256 : Shape := ⟨2, ![1024, 256]⟩
abbrev S8x256 : Shape := ⟨2, ![8, 256]⟩
abbrev S2048x1024 : Shape := ⟨2, ![2048, 1024]⟩
abbrev S8x128x256 : Shape := ⟨3, ![8, 128, 256]⟩
abbrev S8x1x256 : Shape := ⟨3, ![8, 1, 256]⟩

abbrev nBuf : Space → Nat
  | .hbm => 6
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S32x32, .f32⟩
  | .hbm, ⟨3, _⟩ => ⟨S32x32x128, .f32⟩
  | .hbm, ⟨4, _⟩ => ⟨S32x4096, .f32⟩
  | .hbm, ⟨5, _⟩ => ⟨S8192x4096, .f32⟩
  | .local _ .vmem, ⟨0, _⟩ => ⟨S2048x256, .f32⟩
  | .local _ .vmem, ⟨1, _⟩ => ⟨S2048x256, .f32⟩
  | .local _ .vmem, ⟨2, _⟩ => ⟨S1024x256, .f32⟩
  | .local _ .vmem, ⟨3, _⟩ => ⟨S1024x256, .f32⟩
  | .local _ .vmem, ⟨4, _⟩ => ⟨S8x256, .f32⟩
  | .local _ .vmem, ⟨5, _⟩ => ⟨S8x256, .f32⟩
  | .local _ .vmem, ⟨6, _⟩ => ⟨S2048x1024, .f32⟩
  | .local _ .vmem, ⟨7, _⟩ => ⟨S2048x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S32x32_S32x32x128_0_1 : S32x32.BroadcastsInDim S32x32x128 (![0, 1] : Fin 2 → Fin S32x32x128.rank)
  shapeCasts_S32x32x128_S32x4096 : S32x32x128.ShapeCasts S32x4096
  inb_S2048x1024_S2048x1024_0_0 : ∀ a, (![0, 0] : Fin 2 → Nat) a + S2048x1024.size a ≤ S2048x1024.size a
  h_S2048x1024 : 0 < S2048x1024.numel
  inb_S2048x256_S2048x256_0_0 : ∀ a, (![0, 0] : Fin 2 → Nat) a + S2048x256.size a ≤ S2048x256.size a
  h_S2048x256 : 0 < S2048x256.numel
  bitsLt_bf16_f32 : FTy.bits .bf16 < FTy.bits .f32
  inb_S1024x256_S1024x256_0_0 : ∀ a, (![0, 0] : Fin 2 → Nat) a + S1024x256.size a ≤ S1024x256.size a
  h_S1024x256 : 0 < S1024x256.numel
  inb_S8x256_S8x256_0_0 : ∀ a, (![0, 0] : Fin 2 → Nat) a + S8x256.size a ≤ S8x256.size a
  h_S8x256 : 0 < S8x256.numel
  shapeCasts_S8x256_S8x256 : S8x256.ShapeCasts S8x256
  shapeCasts_S1024x256_S8x128x256 : S1024x256.ShapeCasts S8x128x256
  shapeCasts_S8x256_S8x1x256 : S8x256.ShapeCasts S8x1x256
  broadcasts_S8x1x256_S8x128x256 : S8x1x256.Broadcasts S8x128x256
  shapeCasts_S8x128x256_S1024x256 : S8x128x256.ShapeCasts S1024x256
  shapeCasts_S2048x1024_S2048x1024 : S2048x1024.ShapeCasts S2048x1024
  dot_S2048x256_S1024x256_S2048x1024_1_1_0_0_n_n_wf : DotDims.WF S2048x256 S1024x256 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S8192x4096.size a
  hwx0_0 : ∀ i : grid0.Coords, EltTy.bits .f32 = 32 ∨ (Rect.block (s := S8192x4096) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S4096x4096.size a
  hwx0_1 : ∀ i : grid0.Coords, EltTy.bits .f32 = 32 ∨ (Rect.block (s := S4096x4096) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x256.size a ≤ S32x4096.size a
  hwx0_2 : ∀ i : grid0.Coords, EltTy.bits .f32 = 32 ∨ (Rect.block (s := S32x4096) S8x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S8192x4096.size a
  hwx0_3 : ∀ i : grid0.Coords, EltTy.bits .f32 = 32 ∨ (Rect.block (s := S8192x4096) S2048x1024.size (cc0_transform_3 i) (hinb0_3 i)).WholeWords (EltTy.packing .f32)

variable [Facts₀]

def dot_S2048x256_S1024x256_S2048x1024_1_1_0_0_n_n : DotDims S2048x256 S1024x256 S2048x1024 where
  lhsContracting := [1]
  rhsContracting := [1]
  lhsNonContracting := [0]
  rhsNonContracting := [0]
  lhsBatch := []
  rhsBatch := []
  wf := dot_S2048x256_S1024x256_S2048x1024_1_1_0_0_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S8x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S32x32 : Shape := ⟨2, ![32, 32]⟩
abbrev S32x128x32x128 : Shape := ⟨4, ![32, 128, 32, 128]⟩
abbrev S32x1x32x1 : Shape := ⟨4, ![32, 1, 32, 1]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S32x32, .f32⟩
  | .hbm, ⟨3, _⟩ => ⟨S32x128x32x128, .f32⟩
  | .hbm, ⟨4, _⟩ => ⟨S32x1x32x1, .f32⟩
  | .hbm, ⟨5, _⟩ => ⟨S32x128x32x128, .f32⟩
  | .hbm, ⟨6, _⟩ => ⟨S32x128x32x128, .f32⟩
  | .hbm, ⟨7, _⟩ => ⟨S4096x4096, .f32⟩
  | .hbm, ⟨8, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  shapeCasts_S4096x4096_S32x128x32x128 : S4096x4096.ShapeCasts S32x128x32x128
  bcast_S32x32_S32x1x32x1_0_2 : S32x32.BroadcastsInDim S32x1x32x1 (![0, 2] : Fin 2 → Fin S32x1x32x1.rank)
  bcast_S32x1x32x1_S32x128x32x128_0_1_2_3 : S32x1x32x1.BroadcastsInDim S32x128x32x128 (![0, 1, 2, 3] : Fin 4 → Fin S32x128x32x128.rank)
  shapeCasts_S32x128x32x128_S4096x4096 : S32x128x32x128.ShapeCasts S4096x4096
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.LibDotReadRhsT.lean ====
/- A matrix product's contraction sum re-indexed by the contracted coordinate, for the product of an m x k matrix by
   the transpose of an n x k matrix: both operands are contracted along their second axis. -/
import Idealize.ShloMosaic.Lib.ValueIdx
import Idealize.ShloMosaic.PureOps.Ideal.Laws

noncomputable section

open scoped BigOperators

namespace Cert.DotReadRhsT

open Idealize.ShloMosaic Idealize.ShloMosaic.ValueIdx

/-- The right operand transposed: the contraction at (a, b) runs over A (a, c) * B (b, c). -/
theorem sum_contr_rhsT {m k n : Nat}
    (w : DotDims.WF ⟨2, ![m, k]⟩ ⟨2, ![n, k]⟩ ⟨2, ![m, n]⟩ [1] [1] [0] [0] [] [])
    (A : (⟨2, ![m, k]⟩ : Shape).Idx → EReal) (B : (⟨2, ![n, k]⟩ : Shape).Idx → EReal) (a : Fin m) (b : Fin n) :
    ∑ q : (⟨[1], [1], [0], [0], [], [], w⟩ : DotDims ⟨2, ![m, k]⟩ ⟨2, ![n, k]⟩ ⟨2, ![m, n]⟩).contr.Idx,
        A ((⟨[1], [1], [0], [0], [], [], w⟩ : DotDims ⟨2, ![m, k]⟩ ⟨2, ![n, k]⟩ ⟨2, ![m, n]⟩).lhsIdx (ix2 a b) q)
          * B ((⟨[1], [1], [0], [0], [], [], w⟩ : DotDims ⟨2, ![m, k]⟩ ⟨2, ![n, k]⟩ ⟨2, ![m, n]⟩).rhsIdx (ix2 a b) q)
      = ∑ c : Fin k, A (ix2 a c) * B (ix2 b c) := by
  rw [← Equiv.sum_comp (contrEquiv1 (⟨[1], [1], [0], [0], [], [], w⟩ : DotDims ⟨2, ![m, k]⟩ ⟨2, ![n, k]⟩ ⟨2, ![m, n]⟩) k rfl rfl).symm]
  refine Finset.sum_congr rfl fun c _ => ?_
  have c2 := contrEquiv1_symm_val (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Cert.DotReadRhsT

end
-- ==== Proof.BodyAt.lean ====
/- What one step of the kernel body adds, read at one place of the output tile.

   The body takes a 2048 x 256 tile of the activations, a 1024 x 256 tile of the stored weights and an 8 x 256 tile of
   scales (one scale row for each group of 128 consecutive weight rows, already spread along the contraction axis), and
   adds to the accumulator tile the product of the activations with the transposed scaled weights. At the extended reals
   the changes of float format are the identity and the product into the zero tile is a plain sum, so at place (p, q)
   the step adds the sum over the 256 contraction places kk of x(p, kk) * (w(q, kk) * s(q / 128, kk)). -/
import proofs.«140990_j1735166788248_1_alg».proof.Proof.Gen.KernelIdeal.Skeleton
import proofs.«140990_j1735166788248_1_alg».proof.Proof.LibDotReadRhsT
import Idealize.ShloMosaic.Lib.ValueIdx
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-- The group of 128 consecutive weight rows that row `q` of a 1024-row tile lies in. -/
abbrev grp (q : Fin 1024) : Fin 8 := ⟨q.val / 128, by have := q.isLt; omega⟩

/-- The tile the first step of a run starts from is zero everywhere. -/
theorem zero_apply (i : S2048x1024.Idx) : (k0_pay1 (F := Ideal)) i = 0 := Ideal.ofBits_zero_f32

/-- The scaled weight tile at (q, kk): the weight there times the scale of row q's group at kk. Splitting the rows into
    8 groups of 128 sends (q, kk) to (q / 128, q % 128, kk); the scale tile, given a unit middle axis and repeated
    along it, is read at (q / 128, kk) whatever the middle coordinate. -/
theorem scaled_apply (x1 : FVec Ideal S1024x256 .f32) (x2 : FVec Ideal S8x256 .f32) (q : Fin 1024) (kk : Fin 256) :
    (shapeCast S1024x256 (mulf (shapeCast S8x128x256 x1 shapeCasts_S1024x256_S8x128x256)
        (broadcastTo S8x128x256 (shapeCast S8x1x256 (shapeCast S8x256 x2 shapeCasts_S8x256_S8x256) shapeCasts_S8x256_S8x1x256)
          broadcasts_S8x1x256_S8x128x256))
      shapeCasts_S8x128x256_S1024x256 : FVec Ideal S1024x256 .f32) (ix2 q kk)
    = x1 (ix2 q kk) * x2 (ix2 (grp q) kk) := by
  have hq := q.isLt
  rw [shapeCast_apply _ _ (ix2 q kk) (ix3 (grp q) (⟨q.val % 128, Nat.mod_lt _ (by decide)⟩ : Fin 128) kk)
    (by rw [Shape.rowMajor_val_three, Shape.rowMajor_val_two]
        show (q.val / 128 * 128 + q.val % 128) * 256 + kk.val = q.val * 256 + kk.val
        omega)]
  rw [mulf_apply]
  rw [shapeCast_apply x1 _ (ix3 (grp q) (⟨q.val % 128, Nat.mod_lt _ (by decide)⟩ : Fin 128) kk) (ix2 q kk)
    (by rw [Shape.rowMajor_val_three, Shape.rowMajor_val_two]
        show q.val * 256 + kk.val = (q.val / 128 * 128 + q.val % 128) * 256 + kk.val
        omega)]
  rw [broadcastTo_apply _ _ (ix3 (grp q) (⟨q.val % 128, Nat.mod_lt _ (by decide)⟩ : Fin 128) kk)
    (ix3 (grp q) (0 : Fin 1) kk)
    (by intro a
        match a with
        | ⟨0, _⟩ => rfl
        | ⟨1, _⟩ => rfl
        | ⟨2, _⟩ => rfl)]
  rw [shapeCast_apply _ _ (ix3 (grp q) (0 : Fin 1) kk) (ix2 (grp q) kk)
    (by rw [Shape.rowMajor_val_three, Shape.rowMajor_val_two]
        show (q.val / 128) * 256 + kk.val = ((q.val / 128) * 1 + 0) * 256 + kk.val
        omega)]
  rw [shapeCast_self]

/-- ONE STEP at place (p, q): the accumulator there plus the 256 products of the step's tiles. -/
theorem step_apply (x0 : FVec Ideal S2048x256 .f32) (x1 : FVec Ideal S1024x256 .f32) (x2 : FVec Ideal S8x256 .f32)
    (acc : FVec Ideal S2048x1024 .f32) (p : Fin 2048) (q : Fin 1024) :
    k0_pay2 (F := Ideal) x0 x1 x2 acc (ix2 p q)
      = acc (ix2 p q) + ∑ kk : Fin 256, x0 (ix2 p kk) * (x1 (ix2 q kk) * x2 (ix2 (grp q) kk)) := by
  unfold k0_pay2
  refine (addf_apply _ _ (ix2 p q)).trans ?_
  refine congrArg₂ (· + ·) (congrFun (shapeCast_self acc _) (ix2 p q)) ?_
  refine (Ideal.matmul_constant_zero_apply _ none _ _ (ix2 p q)).trans ?_
  refine (Cert.DotReadRhsT.sum_contr_rhsT (m := 2048) (k := 256) (n := 1024)
    dot_S2048x256_S1024x256_S2048x1024_1_1_0_0_n_n_wf _ _ p q).trans ?_
  refine Finset.sum_congr rfl fun kk _ => ?_
  exact congrArg₂ (· * ·) rfl (scaled_apply x1 x2 q kk)

end Cert.KernelIdeal.Body

end
-- ==== Proof.Tiles.lean ====
/- The tiles a grid point works on, read off the argument arrays.

   The grid is 4 x 4 x 16, its points numbered in row-major order: point t has output-row block t / 64, output-column
   block t / 16 % 4 and contraction step t % 16. At point t the kernel sees rows 2048 * (t / 64) .. of the activations,
   rows 1024 * (t / 16 % 4) .. of the stored weights, rows 8 * (t / 16 % 4) .. of the spread scales, each at columns
   256 * (t % 16) ... The spread scales are the 32 x 32 scale table with every entry repeated 128 times along the
   contraction axis: entry (g, k) of the spread table is entry (g, k / 128) of the table. -/
import proofs.«140990_j1735166788248_1_alg».proof.Proof.Gen.KernelIdeal.Frame.Runs
import Idealize.ShloMosaic.Lib.ValueIdx
import Idealize.ShloMosaic.Lib.Pipeline.Value
import Idealize.ShloMosaic.Lib.StableHlo.Run

noncomputable section

namespace Cert.KernelIdeal.Tiles

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ)

/-- The three argument arrays on core `c`: activations, stored weights, scale table. -/
abbrev xarr (c : Dev nD) : FVec Ideal S8192x4096 .f32 := m ((c : Thread nD τ).loc main_arg0)
abbrev warr (c : Dev nD) : FVec Ideal S4096x4096 .f32 := m ((c : Thread nD τ).loc main_arg1)
abbrev sarr (c : Dev nD) : FVec Ideal S32x32 .f32 := m ((c : Thread nD τ).loc main_arg2)

/-- The block indices of the three input tiles at point `t`, from the point's number. -/
theorem tile_idx : ∀ t : Fin cfg0.N,
    win0_0.index t (0 : Fin 2) = t.val / 64 ∧ win0_0.index t (1 : Fin 2) = t.val % 16
    ∧ win0_1.index t (0 : Fin 2) = t.val / 16 % 4 ∧ win0_1.index t (1 : Fin 2) = t.val % 16
    ∧ win0_2.index t (0 : Fin 2) = t.val / 16 % 4 ∧ win0_2.index t (1 : Fin 2) = t.val % 16 :=
  (by decide +kernel : ∀ t : Fin grid0.N, _)

/-- The spread scale table at (g, k) is the scale table at (g, k / 128). -/
theorem spread_apply (s : FVec Ideal S32x32 .f32) (g : Fin 32) (k : Fin 4096) :
    (shapeCast S32x4096 (broadcastInDim S32x32x128 ![0, 1] bcast_S32x32_S32x32x128_0_1 s)
      shapeCasts_S32x32x128_S32x4096 : FVec Ideal S32x4096 .f32) (ix2 g k)
      = s (ix2 g (⟨k.val / 128, by have := k.isLt; omega⟩ : Fin 32)) := by
  have hk := k.isLt
  rw [shapeCast_apply _ _ (ix2 g k)
    (ix3 g (⟨k.val / 128, by omega⟩ : Fin 32) (⟨k.val % 128, Nat.mod_lt _ (by decide)⟩ : Fin 128))
    (by rw [Shape.rowMajor_val_three, Shape.rowMajor_val_two]
        show (g.val * 32 + k.val / 128) * 128 + k.val % 128 = g.val * 4096 + k.val
        omega)]
  rw [broadcastInDim_apply _ _ _ (ix3 g (⟨k.val / 128, by omega⟩ : Fin 32) (⟨k.val % 128, Nat.mod_lt _ (by decide)⟩ : Fin 128))
    (ix2 g (⟨k.val / 128, by omega⟩ : Fin 32))
    (by intro a
        match a with
        | ⟨0, _⟩ => rfl
        | ⟨1, _⟩ => rfl)]

/-- When the kernel is entered the spread table's buffer holds the scale table broadcast and reshaped. -/
theorem spread_eq (c : Dev nD) :
    (V m c main_v1 : FVec Ideal S32x4096 .f32)
      = shapeCast S32x4096 (broadcastInDim S32x32x128 ![0, 1] bcast_S32x32_S32x32x128_0_1 (sarr m c))
          shapeCasts_S32x32x128_S32x4096 := by
  dsimp only [Gen.V, Gen.hostOps0]
  after_results
  rfl

/-- The activation tile of point `t` at (p, kk). -/
theorem xtile_apply (c : Dev nD) (t : Fin cfg0.N) (p : Fin 2048) (kk : Fin 256) :
    (iblk m c 0 t : FVec Ideal S2048x256 .f32) (ix2 p kk)
      = xarr m c (ix2 (⟨2048 * (t.val / 64) + p.val, by
            have := lt_of_lt_of_eq t.isLt (show cfg0.N = 256 from N_0); have := p.isLt; omega⟩ : Fin 8192)
          (⟨256 * (t.val % 16) + kk.val, by have := kk.isLt; omega⟩ : Fin 4096)) := by
  obtain ⟨e0, e1, -⟩ := tile_idx t
  show V m c main_arg0 (((cfg0.win 0).blk t).view.emb (ix2 p kk)) = _
  rw [V_main_arg0]
  refine congrArg (xarr m c) (funext fun a => Fin.ext ?_)
  match a with
  | ⟨0, _⟩ =>
    show win0_0.index t (0 : Fin 2) * 2048 + 1 * p.val = 2048 * (t.val / 64) + p.val
    rw [e0]; omega
  | ⟨1, _⟩ =>
    show win0_0.index t (1 : Fin 2) * 256 + 1 * kk.val = 256 * (t.val % 16) + kk.val
    rw [e1]; omega

/-- The weight tile of point `t` at (q, kk). -/
theorem wtile_apply (c : Dev nD) (t : Fin cfg0.N) (q : Fin 1024) (kk : Fin 256) :
    (iblk m c 1 t : FVec Ideal S1024x256 .f32) (ix2 q kk)
      = warr m c (ix2 (⟨1024 * (t.val / 16 % 4) + q.val, by have := q.isLt; omega⟩ : Fin 4096)
          (⟨256 * (t.val % 16) + kk.val, by have := kk.isLt; omega⟩ : Fin 4096)) := by
  obtain ⟨-, -, e0, e1, -⟩ := tile_idx t
  show V m c main_arg1 (((cfg0.win 1).blk t).view.emb (ix2 q kk)) = _
  rw [V_main_arg1]
  refine congrArg (warr m c) (funext fun a => Fin.ext ?_)
  match a with
  | ⟨0, _⟩ =>
    show win0_1.index t (0 : Fin 2) * 1024 + 1 * q.val = 1024 * (t.val / 16 % 4) + q.val
    rw [e0]; omega
  | ⟨1, _⟩ =>
    show win0_1.index t (1 : Fin 2) * 256 + 1 * kk.val = 256 * (t.val % 16) + kk.val
    rw [e1]; omega

/-- The scale tile of point `t` at (g, kk): the scale table at row 8 * (t / 16 % 4) + g and at the column of the
    128-wide stretch that contraction place 256 * (t % 16) + kk lies in. -/
theorem stile_apply (c : Dev nD) (t : Fin cfg0.N) (g : Fin 8) (kk : Fin 256) :
    (iblk m c 2 t : FVec Ideal S8x256 .f32) (ix2 g kk)
      = sarr m c (ix2 (⟨8 * (t.val / 16 % 4) + g.val, by have := g.isLt; omega⟩ : Fin 32)
          (⟨(256 * (t.val % 16) + kk.val) / 128, by have := kk.isLt; omega⟩ : Fin 32)) := by
  obtain ⟨-, -, -, -, e0, e1⟩ := tile_idx t
  show (V m c main_v1 : FVec Ideal S32x4096 .f32) (((cfg0.win 2).blk t).view.emb (ix2 g kk)) = _
  rw [spread_eq]
  have hidx : ((cfg0.win 2).blk t).view.emb (ix2 g kk)
      = ix2 (⟨8 * (t.val / 16 % 4) + g.val, by have := g.isLt; omega⟩ : Fin 32)
          (⟨256 * (t.val % 16) + kk.val, by have := kk.isLt; omega⟩ : Fin 4096) := by
    funext a
    apply Fin.ext
    match a with
    | ⟨0, _⟩ =>
      show win0_2.index t (0 : Fin 2) * 8 + 1 * g.val = 8 * (t.val / 16 % 4) + g.val
      rw [e0]; omega
    | ⟨1, _⟩ =>
      show win0_2.index t (1 : Fin 2) * 256 + 1 * kk.val = 256 * (t.val % 16) + kk.val
      rw [e1]; omega
  rw [hidx]
  exact spread_apply (sarr m c) _ _

end Cert.KernelIdeal.Tiles

end
-- ==== Proof.LibBlockedSum.lean ====
/- A sum over a range of naturals cut into consecutive blocks of equal length: summing block by block, each block
   over its places, is summing over the whole range. Stated for a function of the naturals with values in a
   commutative additive monoid, so that the blocks' terms are named by arithmetic on positions alone. -/
import Mathlib.Algebra.BigOperators.Fin
import Mathlib.Algebra.BigOperators.Intervals

open scoped BigOperators

namespace Cert.BlockedSum

variable {M : Type*} [AddCommMonoid M]

/-- Over ranges: the sum over `nb` blocks of the sum over the `bs` places of block `s`, which are the positions
    `bs * s + r`, is the sum over the first `nb * bs` positions. By induction on the number of blocks: the last
    block is the tail of the longer range. -/
theorem sum_range_blocks (f : ℕ → M) (bs : ℕ) : ∀ nb : ℕ,
    ∑ s ∈ Finset.range nb, ∑ r ∈ Finset.range bs, f (bs * s + r) = ∑ k ∈ Finset.range (nb * bs), f k
  | 0 => by simp
  | nb + 1 => by
    rw [Finset.sum_range_succ, sum_range_blocks f bs nb, Nat.succ_mul, Finset.sum_range_add, Nat.mul_comm bs nb]

/-- The same with the places of a block and the positions of the whole range as bounded naturals. -/
theorem sum_blocks_fin (f : ℕ → M) (nb bs : ℕ) :
    ∑ s ∈ Finset.range nb, ∑ r : Fin bs, f (bs * s + r.val) = ∑ k : Fin (nb * bs), f k.val := by
  rw [Fin.sum_univ_eq_sum_range f (nb * bs), ← sum_range_blocks f bs nb]
  exact Finset.sum_congr rfl fun s _ => Fin.sum_univ_eq_sum_range (fun r => f (bs * s + r)) bs

end Cert.BlockedSum
-- ==== Proof.Fold.lean ====
/- The kernel's result array, read at one place: the sixteen steps of a run add up to one sum over the whole
   contraction axis.

   Output place (a, b) lies in the tile of run r = 4 * (a / 2048) + b / 1024, whose sixteen grid points are
   16 r .. 16 r + 15. The first point starts from the zero tile and every point adds, at the place's position in the
   tile, the 256 products of its input tiles; step s of the run sees contraction places 256 s .. 256 s + 255 of row a of
   the activations, of row b of the stored weights and of the scales of row b's group. So the run leaves at (a, b) the
   sum over s below 16 and kk below 256 of the term at contraction place 256 s + kk, which is the sum over all 4096
   places: addition of extended reals is commutative and associative, and nothing else is used. -/
import proofs.«140990_j1735166788248_1_alg».proof.Proof.Gen.KernelIdeal.Value
import proofs.«140990_j1735166788248_1_alg».proof.Proof.BodyAt
import proofs.«140990_j1735166788248_1_alg».proof.Proof.Tiles
import proofs.«140990_j1735166788248_1_alg».proof.Proof.LibBlockedSum

noncomputable section

open scoped BigOperators

namespace Cert.KernelIdeal.Fold

open Cert.KernelIdeal Cert.KernelIdeal.Gen Cert.KernelIdeal.Value Cert.KernelIdeal.Tiles
open Idealize.ShloMosaic Idealize.ShloMosaic.TcCoe Idealize.ShloMosaic.ValueIdx Idealize.SL.Sem

variable (m : (ℓ : Loc nD τ sig) → Buf (Elt Ideal) ℓ)

/-- The term of the product at output place (a, b) and contraction place `k`, as a function of every natural (zero
    past the axis, where it is never read). -/
def term (c : Dev nD) (a : Fin 8192) (b : Fin 4096) (k : ℕ) : EReal :=
  if h : k < 4096 then
    xarr m c (ix2 a ⟨k, h⟩)
      * (warr m c (ix2 b ⟨k, h⟩) * sarr m c (ix2 (⟨b.val / 128, by have := b.isLt; omega⟩ : Fin 32) (⟨k / 128, by omega⟩ : Fin 32)))
  else 0

/-- The three input tiles of grid point `n`, at their literal shapes. -/
abbrev xtile (c : Dev nD) (n : ℕ) (h : n < cfg0.N) : FVec Ideal S2048x256 .f32 := iblk m c 0 ⟨n, h⟩
abbrev wtile (c : Dev nD) (n : ℕ) (h : n < cfg0.N) : FVec Ideal S1024x256 .f32 := iblk m c 1 ⟨n, h⟩
abbrev stile (c : Dev nD) (n : ℕ) (h : n < cfg0.N) : FVec Ideal S8x256 .f32 := iblk m c 2 ⟨n, h⟩

/-- Their entries, read off the argument arrays (Proof/Tiles.lean, restated at the literal shapes). -/
theorem xtile_eq (c : Dev nD) (n : ℕ) (h : n < cfg0.N) (p : Fin 2048) (kk : Fin 256) :
    xtile m c n h (ix2 p kk)
      = xarr m c (ix2 (⟨2048 * (n / 64) + p.val, by
            have := lt_of_lt_of_eq h (show cfg0.N = 256 from N_0); have := p.isLt; omega⟩ : Fin 8192)
          (⟨256 * (n % 16) + kk.val, by have := kk.isLt; omega⟩ : Fin 4096)) :=
  xtile_apply m c ⟨n, h⟩ p kk
theorem wtile_eq (c : Dev nD) (n : ℕ) (h : n < cfg0.N) (q : Fin 1024) (kk : Fin 256) :
    wtile m c n h (ix2 q kk)
      = warr m c (ix2 (⟨1024 * (n / 16 % 4) + q.val, by have := q.isLt; omega⟩ : Fin 4096)
          (⟨256 * (n % 16) + kk.val, by have := kk.isLt; omega⟩ : Fin 4096)) :=
  wtile_apply m c ⟨n, h⟩ q kk
theorem stile_eq (c : Dev nD) (n : ℕ) (h : n < cfg0.N) (g : Fin 8) (kk : Fin 256) :
    stile m c n h (ix2 g kk)
      = sarr m c (ix2 (⟨8 * (n / 16 % 4) + g.val, by have := g.isLt; omega⟩ : Fin 32)
          (⟨(256 * (n % 16) + kk.val) / 128, by have := kk.isLt; omega⟩ : Fin 32)) :=
  stile_apply m c ⟨n, h⟩ g kk

/-- What grid point `n` adds at tile place `i`: the 256 products of its tiles (zero for a number that is no point). -/
def addend (c : Dev nD) (n : ℕ) (i : S2048x1024.Idx) : EReal :=
  if h : n < cfg0.N then
    ∑ kk : Fin 256, xtile m c n h (ix2 (i 0) kk) * (wtile m c n h (ix2 (i 1) kk) * stile m c n h (ix2 (Body.grp (i 1)) kk))
  else 0

/-- A step of the fold at point `n` adds that point's addend. -/
theorem step_addend (c : Dev nD) (n : ℕ) (h : n < cfg0.N) (acc : FVec Ideal S2048x1024 .f32) (i : S2048x1024.Idx) :
    step3 m c n h acc i = acc i + addend m c n i := by
  obtain ⟨p, q, rfl⟩ : ∃ (p : Fin 2048) (q : Fin 1024), i = ix2 p q := ⟨i 0, i 1, eq_ix2 i⟩
  unfold addend
  rw [dif_pos h]
  exact Body.step_apply (xtile m c n h) (wtile m c n h) (stile m c n h) acc p q

/-- The first point of a run is a step from the zero tile. -/
theorem reset_addend (c : Dev nD) (n : ℕ) (h : n < cfg0.N) (i : S2048x1024.Idx) :
    reset3 m c n h i = 0 + addend m c n i := by
  show step3 m c n h (k0_pay1 (F := Ideal)) i = _
  rw [step_addend, Body.zero_apply]

/-- Step `s` of the run of output place (a, b) adds the terms at contraction places 256 s .. 256 s + 255. -/
theorem addend_run (c : Dev nD) (a : Fin 8192) (b : Fin 4096) (s : ℕ) (hs : s < 16) :
    addend m c (16 * run3Of (ix2 a b) + s) (loc3Of (ix2 a b)) = ∑ kk : Fin 256, term m c a b (256 * s + kk.val) := by
  have ha := a.isLt
  have hb := b.isLt
  have hr : run3Of (ix2 a b) = 4 * (a.val / 2048) + b.val / 1024 := by
    show 4 * (a.val / 2048 - 0) + 1 * (b.val / 1024 - 0) = _
    omega
  have hn : 16 * run3Of (ix2 a b) + s < cfg0.N := by
    rw [show cfg0.N = 256 from N_0, hr]; omega
  unfold addend
  rw [dif_pos hn]
  refine Finset.sum_congr rfl fun kk _ => ?_
  have hkk := kk.isLt
  have hl0 : ((loc3Of (ix2 a b)) 0).val = a.val % 2048 := rfl
  have hl1 : ((loc3Of (ix2 a b)) 1).val = b.val % 1024 := rfl
  unfold term
  rw [dif_pos (show 256 * s + kk.val < 4096 by omega)]
  rw [xtile_eq m c _ hn ((loc3Of (ix2 a b)) 0) kk, wtile_eq m c _ hn ((loc3Of (ix2 a b)) 1) kk,
    stile_eq m c _ hn (Body.grp ((loc3Of (ix2 a b)) 1)) kk]
  have e0 : (⟨2048 * ((16 * run3Of (ix2 a b) + s) / 64) + ((loc3Of (ix2 a b)) 0).val, by
      rw [hl0, hr]; omega⟩ : Fin 8192) = a := Fin.ext (by show 2048 * ((16 * run3Of (ix2 a b) + s) / 64) + ((loc3Of (ix2 a b)) 0).val = a.val; rw [hl0, hr]; omega)
  have e1 : (⟨1024 * ((16 * run3Of (ix2 a b) + s) / 16 % 4) + ((loc3Of (ix2 a b)) 1).val, by
      rw [hl1, hr]; omega⟩ : Fin 4096) = b := Fin.ext (by show 1024 * ((16 * run3Of (ix2 a b) + s) / 16 % 4) + ((loc3Of (ix2 a b)) 1).val = b.val; rw [hl1, hr]; omega)
  have e2 : (⟨256 * ((16 * run3Of (ix2 a b) + s) % 16) + kk.val, by omega⟩ : Fin 4096) = ⟨256 * s + kk.val, by omega⟩ :=
    Fin.ext (by show 256 * ((16 * run3Of (ix2 a b) + s) % 16) + kk.val = 256 * s + kk.val; omega)
  have e3 : (⟨8 * ((16 * run3Of (ix2 a b) + s) / 16 % 4) + (Body.grp ((loc3Of (ix2 a b)) 1)).val, by
      show 8 * ((16 * run3Of (ix2 a b) + s) / 16 % 4) + ((loc3Of (ix2 a b)) 1).val / 128 < 32
      rw [hl1, hr]; omega⟩ : Fin 32) = ⟨b.val / 128, by omega⟩ :=
    Fin.ext (by show 8 * ((16 * run3Of (ix2 a b) + s) / 16 % 4) + ((loc3Of (ix2 a b)) 1).val / 128 = b.val / 128; rw [hl1, hr]; omega)
  have e4 : (⟨(256 * ((16 * run3Of (ix2 a b) + s) % 16) + kk.val) / 128, by omega⟩ : Fin 32) = ⟨(256 * s + kk.val) / 128, by omega⟩ :=
    Fin.ext (by show (256 * ((16 * run3Of (ix2 a b) + s) % 16) + kk.val) / 128 = (256 * s + kk.val) / 128; omega)
  rw [e0, e1, e2, e3, e4]

/-- THE KERNEL'S RESULT at (a, b): one sum over the whole contraction axis. -/
theorem result_apply (c : Dev nD) (a : Fin 8192) (b : Fin 4096) :
    @Eq EReal (G3 m c (ix2 a b)) (∑ k : Fin 4096, xarr m c (ix2 a k)
        * (warr m c (ix2 b k) * sarr m c (ix2 (⟨b.val / 128, by have := b.isLt; omega⟩ : Fin 32) (⟨k.val / 128, by have := k.isLt; omega⟩ : Fin 32)))) := by
  have ha := a.isLt
  have hb := b.isLt
  have hr : run3Of (ix2 a b) = 4 * (a.val / 2048) + b.val / 1024 := by
    show 4 * (a.val / 2048 - 0) + 1 * (b.val / 1024 - 0) = _
    omega
  have hN : 16 * run3Of (ix2 a b) + 15 < cfg0.N := by
    rw [show cfg0.N = 256 from N_0, hr]; omega
  unfold G3
  rw [dif_pos hN]
  rw [Pipeline.accAt_add_apply (reset3 m c) (step3 m c) (fun _ => (0 : EReal)) (addend m c) (16 * run3Of (ix2 a b)) 15
    (fun h i => reset_addend m c _ h i) (fun n h acc i _ _ => step_addend m c n h acc i) 15 le_rfl hN (loc3Of (ix2 a b))]
  rw [zero_add]
  rw [Finset.sum_congr rfl (fun s hs => addend_run m c a b s (Finset.mem_range.mp hs))]
  rw [Cert.BlockedSum.sum_blocks_fin (term m c a b) 16 256]
  refine Finset.sum_congr rfl fun k _ => ?_
  unfold term
  rw [dif_pos k.isLt]

end Cert.KernelIdeal.Fold

end
-- ==== Proof.RefAt.lean ====
/- The reference read at one place of its result.

   The reference splits the stored weights into 128 x 128 squares, multiplies each square by its entry of the 32 x 32
   scale table, puts the squares back, and multiplies the activations by the transpose: at place (a, b) of the result
   that is the sum over all 4096 contraction places k of x(a, k) * (w(b, k) * s(b / 128, k / 128)). -/
import proofs.«140990_j1735166788248_1_alg».proof.Proof.Gen.ReferenceIdeal
import proofs.«140990_j1735166788248_1_alg».proof.Proof.LibDotReadRhsT
import Idealize.ShloMosaic.Lib.ValueIdx
import Idealize.ShloMosaic.Lib.Pipeline.Value
import Idealize.ShloMosaic.PureOps.Ideal.Laws

noncomputable section

open scoped BigOperators

namespace Cert.ReferenceIdeal.RefAt

open Cert.ReferenceIdeal Cert.ReferenceIdeal.Gen Idealize.ShloMosaic Idealize.ShloMosaic.ValueIdx

/-- The scaled weights at (b, k): the weight there times the scale of the square that (b, k) lies in. The split sends
    (b, k) to (b / 128, b % 128, k / 128, k % 128); the scale table, given unit axes in the second and fourth places
    and repeated along them, is read at (b / 128, k / 128). -/
theorem scaled_apply (W : FVec Ideal S4096x4096 .f32) (S : FVec Ideal S32x32 .f32) (b k : Fin 4096) :
    (shapeCast S4096x4096 (mulf (shapeCast S32x128x32x128 W shapeCasts_S4096x4096_S32x128x32x128)
        (broadcastInDim S32x128x32x128 ![0, 1, 2, 3] bcast_S32x1x32x1_S32x128x32x128_0_1_2_3
          (broadcastInDim S32x1x32x1 ![0, 2] bcast_S32x32_S32x1x32x1_0_2 S)))
      shapeCasts_S32x128x32x128_S4096x4096 : FVec Ideal S4096x4096 .f32) (ix2 b k)
      = W (ix2 b k) * S (ix2 (⟨b.val / 128, by have := b.isLt; omega⟩ : Fin 32) (⟨k.val / 128, by have := k.isLt; omega⟩ : Fin 32)) := by
  have hb := b.isLt
  have hk := k.isLt
  rw [shapeCast_apply _ _ (ix2 b k)
    (ix4 (⟨b.val / 128, by omega⟩ : Fin 32) (⟨b.val % 128, Nat.mod_lt _ (by decide)⟩ : Fin 128)
      (⟨k.val / 128, by omega⟩ : Fin 32) (⟨k.val % 128, Nat.mod_lt _ (by decide)⟩ : Fin 128))
    (by rw [Shape.rowMajor_val_four, Shape.rowMajor_val_two]
        show ((b.val / 128 * 128 + b.val % 128) * 32 + k.val / 128) * 128 + k.val % 128 = b.val * 4096 + k.val
        omega)]
  rw [mulf_apply]
  rw [shapeCast_apply W _
    (ix4 (⟨b.val / 128, by omega⟩ : Fin 32) (⟨b.val % 128, Nat.mod_lt _ (by decide)⟩ : Fin 128)
      (⟨k.val / 128, by omega⟩ : Fin 32) (⟨k.val % 128, Nat.mod_lt _ (by decide)⟩ : Fin 128))
    (ix2 b k)
    (by rw [Shape.rowMajor_val_four, Shape.rowMajor_val_two]
        show b.val * 4096 + k.val = ((b.val / 128 * 128 + b.val % 128) * 32 + k.val / 128) * 128 + k.val % 128
        omega)]
  rw [broadcastInDim_apply _ _ _
    (ix4 (⟨b.val / 128, by omega⟩ : Fin 32) (⟨b.val % 128, Nat.mod_lt _ (by decide)⟩ : Fin 128)
      (⟨k.val / 128, by omega⟩ : Fin 32) (⟨k.val % 128, Nat.mod_lt _ (by decide)⟩ : Fin 128))
    (ix4 (⟨b.val / 128, by omega⟩ : Fin 32) (0 : Fin 1) (⟨k.val / 128, by omega⟩ : Fin 32) (0 : Fin 1))
    (by intro a
        match a with
        | ⟨0, _⟩ => rfl
        | ⟨1, _⟩ => rfl
        | ⟨2, _⟩ => rfl
        | ⟨3, _⟩ => rfl)]
  rw [broadcastInDim_apply _ _ _
    (ix4 (⟨b.val / 128, by omega⟩ : Fin 32) (0 : Fin 1) (⟨k.val / 128, by omega⟩ : Fin 32) (0 : Fin 1))
    (ix2 (⟨b.val / 128, by omega⟩ : Fin 32) (⟨k.val / 128, by omega⟩ : Fin 32))
    (by intro a
        match a with
        | ⟨0, _⟩ => rfl
        | ⟨1, _⟩ => rfl)]

/-- THE REFERENCE'S RESULT at (a, b): one sum over the whole contraction axis. -/
theorem result_apply (X : FVec Ideal S8192x4096 .f32) (W : FVec Ideal S4096x4096 .f32) (S : FVec Ideal S32x32 .f32)
    (a : Fin 8192) (b : Fin 4096) :
    Host.dotGeneral (F := Ideal) dot_S8192x4096_S4096x4096_S8192x4096_1_1_0_0_n_n none X
        (shapeCast S4096x4096 (mulf (shapeCast S32x128x32x128 W shapeCasts_S4096x4096_S32x128x32x128)
          (broadcastInDim S32x128x32x128 ![0, 1, 2, 3] bcast_S32x1x32x1_S32x128x32x128_0_1_2_3
            (broadcastInDim S32x1x32x1 ![0, 2] bcast_S32x32_S32x1x32x1_0_2 S)))
          shapeCasts_S32x128x32x128_S4096x4096) (ix2 a b)
      = ∑ k : Fin 4096, X (ix2 a k)
          * (W (ix2 b k) * S (ix2 (⟨b.val / 128, by have := b.isLt; omega⟩ : Fin 32) (⟨k.val / 128, by have := k.isLt; omega⟩ : Fin 32))) := by
  refine (Ideal.dotGeneral_apply _ none .single _ _ (ix2 a b)).trans ?_
  refine (Cert.DotReadRhsT.sum_contr_rhsT (m := 8192) (k := 4096) (n := 4096)
    dot_S8192x4096_S4096x4096_S8192x4096_1_1_0_0_n_n_wf _ _ a b).trans ?_
  refine Finset.sum_congr rfl fun k _ => ?_
  exact congrArg₂ (· * ·) rfl (scaled_apply W S b k)

end Cert.ReferenceIdeal.RefAt

end
-- ==== Proof.lean ====
/- Block-scaled linear layer: the tiled kernel against the one-shot reference, over the extended reals.

   Both programs compute out(a, b) = sum over the 4096 contraction places k of x(a, k) * (w(b, k) * s(b / 128, k / 128)),
   the stored weights scaled square by square (128 x 128) by a 32 x 32 table. The reference scales the whole weight
   matrix and takes one product with its transpose (Proof/RefAt.lean). The kernel first repeats each scale 128 times
   along the contraction axis, then walks a 4 x 4 x 16 grid: for each 2048 x 1024 output tile sixteen steps, each adding
   the product of a 2048 x 256 activation tile with the transposed, scaled 1024 x 256 weight tile into the tile, the
   first step starting from zero (Proof/BodyAt.lean: one step at a place; Proof/Tiles.lean: which entries of the
   arguments a step's tiles hold; Proof/Fold.lean: the sixteen steps are one sum over the whole axis, by
   Proof/LibBlockedSum.lean). Changes of float format are the identity at the extended reals, and the two sides differ
   only in the grouping of one finite sum, so no finiteness of the inputs is used.

   The frames and the two runs are the generated modules' (the kernel's run ends with its result array at the fold of
   each run of sixteen points; the reference's at its operations' composed term); the idealization rewrote nothing. -/
import proofs.«140990_j1735166788248_1_alg».proof.Defs
import proofs.«140990_j1735166788248_1_alg».proof.Proof.Gen.Kernel.Frame
import proofs.«140990_j1735166788248_1_alg».proof.Proof.Gen.KernelIdeal.Value
import proofs.«140990_j1735166788248_1_alg».proof.Proof.Gen.Pre_finite_inputs
import proofs.«140990_j1735166788248_1_alg».proof.Proof.Gen.ReferenceIdeal.Run
import proofs.«140990_j1735166788248_1_alg».proof.Proof.Fold
import proofs.«140990_j1735166788248_1_alg».proof.Proof.RefAt
import Idealize.ShloMosaic.Adequacy
import Idealize.ShloMosaic.Init

noncomputable section

namespace Cert.Proof

open Idealize.ShloMosaic Idealize.SL.Sem Idealize.ShloMosaic.ValueIdx

theorem frame_KernelIdeal : frame_KernelIdeal := fun m ρ _ =>
  (θ_run Cert.KernelIdeal.defs _ _).mono (fun _ h c => (h c).2) (Cert.KernelIdeal.Value.run (F := Ideal) m ρ)

theorem frame_ReferenceIdeal : frame_ReferenceIdeal := fun m ρ _ =>
  (θ_run Cert.ReferenceIdeal.defs _ _).mono (fun _ h c => (h c).2) (Cert.ReferenceIdeal.Value.run (F := Ideal) m ρ)

/-- The reference's term of the kernel's argument arrays is the kernel's result array: at every place both are the
    same sum over the contraction axis. -/
theorem reference_eq_kernel (m : (ℓ : Loc Cert.KernelIdeal.nD Cert.KernelIdeal.τ Cert.KernelIdeal.sig) → Buf (Elt Ideal) ℓ)
    (c : Dev Cert.KernelIdeal.nD) :
    Host.dotGeneral (F := Ideal) Cert.ReferenceIdeal.dot_S8192x4096_S4096x4096_S8192x4096_1_1_0_0_n_n none
        (Cert.KernelIdeal.Tiles.xarr m c)
        (shapeCast Cert.ReferenceIdeal.S4096x4096
          (mulf (shapeCast Cert.ReferenceIdeal.S32x128x32x128 (Cert.KernelIdeal.Tiles.warr m c)
              Cert.ReferenceIdeal.Gen.shapeCasts_S4096x4096_S32x128x32x128)
            (broadcastInDim Cert.ReferenceIdeal.S32x128x32x128 ![0, 1, 2, 3]
              Cert.ReferenceIdeal.Gen.bcast_S32x1x32x1_S32x128x32x128_0_1_2_3
              (broadcastInDim Cert.ReferenceIdeal.S32x1x32x1 ![0, 2] Cert.ReferenceIdeal.Gen.bcast_S32x32_S32x1x32x1_0_2
                (Cert.KernelIdeal.Tiles.sarr m c))))
          Cert.ReferenceIdeal.Gen.shapeCasts_S32x128x32x128_S4096x4096)
      = Cert.KernelIdeal.Value.G3 m c := by
  funext i
  obtain ⟨a, b, rfl⟩ : ∃ (a : Fin 8192) (b : Fin 4096), i = ix2 a b := ⟨i 0, i 1, eq_ix2 i⟩
  exact (Cert.ReferenceIdeal.RefAt.result_apply _ _ _ a b).trans (Cert.KernelIdeal.Fold.result_apply m c a b).symm

theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  exact reference_eq_kernel m c

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
